-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg5 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S100000x64 .f32) (main_arg1 : FVec F S27x64x64 .f32) (main_arg2 : FVec F S64 .f32) (main_arg3 : FVec F S64 .f32) (main_arg4 : FVec F S64 .f32) (main_arg5 : FVec F S64 .f32) (main_arg6 : IVec S27x60000 32) (main_arg7 : IVec S27x60000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1x6000x64 : Shape := ⟨3, ![1, 6000, 64]⟩
abbrev S1x64x64 : Shape := ⟨3, ![1, 64, 64]⟩
abbrev S6000x64 : Shape := ⟨2, ![6000, 64]⟩
abbrev S64x64 : Shape := ⟨2, ![64, 64]⟩
abbrev S1620000x64 : Shape := ⟨2, ![1620000, 64]⟩
abbrev S1620000 : Shape := ⟨1, ![1620000]⟩
abbrev S1620000x1 : Shape := ⟨2, ![1620000, 1]⟩
abbrev S1x64 : Shape := ⟨2, ![1, 64]⟩
abbrev S10000x64 : Shape := ⟨2, ![10000, 64]⟩

abbrev nBuf : Space → Nat
  | .hbm => 37
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x60000, .i32⟩
  | .hbm, ⟨7, _⟩ => ⟨S27x60000, .i32⟩
  | .hbm, ⟨8, _⟩ => ⟨S_, .i32⟩
  | .hbm, ⟨9, _⟩ => ⟨S27x60000, .i32⟩
  | .hbm, ⟨10, _⟩ => ⟨S27x60000, .i1⟩
  | .hbm, ⟨11, _⟩ => ⟨S_, .i32⟩
  | .hbm, ⟨12, _⟩ => ⟨S27x60000, .i32⟩
  | .hbm, ⟨13, _⟩ => ⟨S27x60000, .i32⟩
  | .hbm, ⟨14, _⟩ => ⟨S27x60000, .i32⟩
  | .hbm, ⟨15, _⟩ => ⟨S27x60000x1, .i32⟩
  | .hbm, ⟨16, _⟩ => ⟨S27x60000x64, .f32⟩
  | .hbm, ⟨17, _⟩ => ⟨S27x60000x64, .bf16⟩
  | .hbm, ⟨18, _⟩ => ⟨S27x64x64, .bf16⟩
  | .hbm, ⟨19, _⟩ => ⟨S27x60000x64, .f32⟩
  | .hbm, ⟨20, _⟩ => ⟨S1620000x64, .f32⟩
  | .hbm, ⟨21, _⟩ => ⟨S1620000, .i32⟩
  | .hbm, ⟨22, _⟩ => ⟨S_, .f32⟩
  | .hbm, ⟨23, _⟩ => ⟨S100000x64, .f32⟩
  | .hbm, ⟨24, _⟩ => ⟨S1620000x1, .i32⟩
  | .hbm, ⟨25, _⟩ => ⟨S100000x64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S1x64, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S100000x64, .f32⟩
  | .local _ .vmem, ⟨0, _⟩ => ⟨S1x6000x64, .bf16⟩
  | .local _ .vmem, ⟨1, _⟩ => ⟨S1x6000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x6000x64, .f32⟩
  | .local _ .vmem, ⟨5, _⟩ => ⟨S1x6000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![27, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  bitsLt_bf16_f32 : FTy.bits .bf16 < FTy.bits .f32
  inb_S1x6000x64_S1x6000x64_0_0_0 : ∀ a, (![0, 0, 0] : Fin 3 → Nat) a + S1x6000x64.size a ≤ S1x6000x64.size a
  h_S1x6000x64 : 0 < S1x6000x64.numel
  shapeCasts_S1x6000x64_S6000x64 : S1x6000x64.ShapeCasts S6000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S6000x64_S1x6000x64 : S6000x64.ShapeCasts S1x6000x64
  shapeCasts_S27x60000x64_S1620000x64 : S27x60000x64.ShapeCasts S1620000x64
  shapeCasts_S27x60000_S1620000 : S27x60000.ShapeCasts S1620000
  bcast_S_S100000x64 : S_.BroadcastsInDim S100000x64 (![] : Fin 0 → Fin S100000x64.rank)
  bcast_S1620000_S1620000x1_0 : S1620000.BroadcastsInDim S1620000x1 (![0] : Fin 1 → Fin S1620000x1.rank)
  bcast_S_S64 : S_.BroadcastsInDim S64 (![] : Fin 0 → Fin S64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S27x60000x1_S27x60000x64_2_0_n_n_0_2_164_wf : GatherDims.WF S100000x64 S27x60000x1 S27x60000x64 [2] [0] [] [0] [] 2 ![1, 64]
  dot_S6000x64_S64x64_S6000x64_1_0_0_1_n_n_wf : DotDims.WF S6000x64 S64x64 S6000x64 [1] [0] [0] [1] [] []
  scatter_S100000x64_S1620000x1_S1620000x64_1_0_0_1_wf : ScatterDims.WF S100000x64 S1620000x1 S1620000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6000x64.size a ≤ S27x60000x64.size a
  hwx0_0 : ∀ i : grid0.Coords, EltTy.bits .bf16 = 32 ∨ (Rect.block (s := S27x60000x64) S1x6000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6000x64.size a ≤ S27x60000x64.size a
  hwx0_2 : ∀ i : grid0.Coords, EltTy.bits .f32 = 32 ∨ (Rect.block (s := S27x60000x64) S1x6000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def gather_S100000x64_S27x60000x1_S27x60000x64_2_0_n_n_0_2_164 : GatherDims S100000x64 S27x60000x1 S27x60000x64 where
  offsetDims := [2]
  collapsedSliceDims := [0]
  operandBatchingDims := []
  startIndicesBatchingDims := []
  startIndexMap := [0]
  indexVectorDim := 2
  sliceSizes := ![1, 64]
  wf := gather_S100000x64_S27x60000x1_S27x60000x64_2_0_n_n_0_2_164_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def scatter_S100000x64_S1620000x1_S1620000x64_1_0_0_1 : ScatterDims S100000x64 S1620000x1 S1620000x64 where
  updateWindowDims := [1]
  insertedWindowDims := [0]
  scatterDimsToOperandDims := [0]
  indexVectorDim := 1
  wf := scatter_S100000x64_S1620000x1_S1620000x64_1_0_0_1_wf

abbrev win0_0 : Pipeline.Window sig grid0 :=
  Pipeline.Window.ofSpec (Memref.whole main_v7) S1x6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x6000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S64 : Shape := ⟨1, ![64]⟩
abbrev S27x60000 : Shape := ⟨2, ![27, 60000]⟩
abbrev S_ : Shape := ⟨0, ![]⟩
abbrev S27x60000x1 : Shape := ⟨3, ![27, 60000, 1]⟩
abbrev S27x60000x64 : Shape := ⟨3, ![27, 60000, 64]⟩
abbrev S1620000x64 : Shape := ⟨2, ![1620000, 64]⟩
abbrev S1620000 : Shape := ⟨1, ![1620000]⟩
abbrev S1620000x1 : Shape := ⟨2, ![1620000, 1]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S27x60000, .i32⟩
  | .hbm, ⟨7, _⟩ => ⟨S27x60000, .i32⟩
  | .hbm, ⟨8, _⟩ => ⟨S_, .i32⟩
  | .hbm, ⟨9, _⟩ => ⟨S27x60000, .i32⟩
  | .hbm, ⟨10, _⟩ => ⟨S27x60000, .i1⟩
  | .hbm, ⟨11, _⟩ => ⟨S_, .i32⟩
  | .hbm, ⟨12, _⟩ => ⟨S27x60000, .i32⟩
  | .hbm, ⟨13, _⟩ => ⟨S27x60000, .i32⟩
  | .hbm, ⟨14, _⟩ => ⟨S27x60000, .i32⟩
  | .hbm, ⟨15, _⟩ => ⟨S27x60000x1, .i32⟩
  | .hbm, ⟨16, _⟩ => ⟨S27x60000x64, .f32⟩
  | .hbm, ⟨17, _⟩ => ⟨S27x60000x64, .f32⟩
  | .hbm, ⟨18, _⟩ => ⟨S1620000x64, .f32⟩
  | .hbm, ⟨19, _⟩ => ⟨S1620000, .i32⟩
  | .hbm, ⟨20, _⟩ => ⟨S_, .f32⟩
  | .hbm, ⟨21, _⟩ => ⟨S100000x64, .f32⟩
  | .hbm, ⟨22, _⟩ => ⟨S1620000x1, .i32⟩
  | .hbm, ⟨23, _⟩ => ⟨S100000x64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S100000x64, .f32⟩
  | .hbm, ⟨30, _⟩ => ⟨S100000x64, .f32⟩
  | .hbm, ⟨31, _⟩ => ⟨S64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S_S27x60000 : S_.BroadcastsInDim S27x60000 (![] : Fin 0 → Fin S27x60000.rank)
  bcast_S27x60000_S27x60000x1_0_1 : S27x60000.BroadcastsInDim S27x60000x1 (![0, 1] : Fin 2 → Fin S27x60000x1.rank)
  shapeCasts_S27x60000x64_S1620000x64 : S27x60000x64.ShapeCasts S1620000x64
  shapeCasts_S27x60000_S1620000 : S27x60000.ShapeCasts S1620000
  bcast_S_S100000x64 : S_.BroadcastsInDim S100000x64 (![] : Fin 0 → Fin S100000x64.rank)
  bcast_S1620000_S1620000x1_0 : S1620000.BroadcastsInDim S1620000x1 (![0] : Fin 1 → Fin S1620000x1.rank)
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S27x60000x1_S27x60000x64_2_0_n_n_0_2_164_wf : GatherDims.WF S100000x64 S27x60000x1 S27x60000x64 [2] [0] [] [0] [] 2 ![1, 64]
  dot_S27x60000x64_S27x64x64_S27x60000x64_2_1_1_2_0_0_wf : DotDims.WF S27x60000x64 S27x64x64 S27x60000x64 [2] [1] [1] [2] [0] [0]
  scatter_S100000x64_S1620000x1_S1620000x64_1_0_0_1_wf : ScatterDims.WF S100000x64 S1620000x1 S1620000x64 [1] [0] [0] 1

variable [Facts₀]

def gather_S100000x64_S27x60000x1_S27x60000x64_2_0_n_n_0_2_164 : GatherDims S100000x64 S27x60000x1 S27x60000x64 where
  offsetDims := [2]
  collapsedSliceDims := [0]
  operandBatchingDims := []
  startIndicesBatchingDims := []
  startIndexMap := [0]
  indexVectorDim := 2
  sliceSizes := ![1, 64]
  wf := gather_S100000x64_S27x60000x1_S27x60000x64_2_0_n_n_0_2_164_wf
def dot_S27x60000x64_S27x64x64_S27x60000x64_2_1_1_2_0_0 : DotDims S27x60000x64 S27x64x64 S27x60000x64 where
  lhsContracting := [2]
  rhsContracting := [1]
  lhsNonContracting := [1]
  rhsNonContracting := [2]
  lhsBatch := [0]
  rhsBatch := [0]
  wf := dot_S27x60000x64_S27x64x64_S27x60000x64_2_1_1_2_0_0_wf
def scatter_S100000x64_S1620000x1_S1620000x64_1_0_0_1 : ScatterDims S100000x64 S1620000x1 S1620000x64 where
  updateWindowDims := [1]
  insertedWindowDims := [0]
  scatterDimsToOperandDims := [0]
  indexVectorDim := 1
  wf := scatter_S100000x64_S1620000x1_S1620000x64_1_0_0_1_wf

class Facts : Prop extends Facts₀ where

variable [Facts]
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.PreFacts.lean ====
/- What the precondition says of the four per-channel vectors. The printed predicate is a conjunction of
   "every entry's absolute value is below +inf" over the six float inputs and "every entry of the running variance
   is at least 0"; read at an index, each conjunct is a fact about one entry. Only the gain, the offset, the running
   mean and the running variance are read here: the value claim needs nothing of the features and the weights. -/
import proofs.«175282_j52810917871748_1_alg».proof.Pre_finite_inputs
import Idealize.ShloMosaic.PureOps.Ideal
import Idealize.ShloMosaic.Lib.ReduceAll
import Idealize.ShloMosaic.Lib.ValueIdx
import proofs.«175282_j52810917871748_1_alg».proof.Proof.LibFinite

noncomputable section

namespace Cert.PreFacts

open Cert.Pre_finite_inputs Cert.LibFinite
open Idealize.ShloMosaic

variable [Cert.Pre_finite_inputs.Facts]

/-- The scalar shape has exactly one index. -/
instance subsingleton_scalar_idx : Subsingleton S_.Idx := ⟨fun a b => funext fun d => d.elim0⟩

/-- The word `0x7F800000` denotes `+inf`. -/
theorem inf_word : Ideal.ofBits .f32 0x7F800000#32 = (⊤ : EReal) := by simp [Ideal.ofBits, Ideal.ieee]

/-- The word `0` denotes the real number 0. -/
theorem zero_word : Ideal.ofBits .f32 0x00000000#32 = (0 : EReal) := by simp [Ideal.ofBits, Ideal.ieee]

/-- An ordered "less than" that came out 1 is the strict order of the extended reals. -/
theorem lt_of_cmp_olt {x y : EReal} (h : Ideal.cmp .olt x y = 1#1) : x < y := by
  by_contra hn
  simp [Ideal.cmp, hn] at h

/-- An ordered "greater or equal" that came out 1 is the order of the extended reals. -/
theorem le_of_cmp_oge {x y : EReal} (h : Ideal.cmp .oge x y = 1#1) : y ≤ x := by
  by_contra hn
  simp [Ideal.cmp, hn] at h

/-- A value whose absolute value `max x (-x)` lies strictly below `+inf` is neither infinity: at `⊤` the maximum is
    `⊤` itself, and at `⊥` it is `-⊥ = ⊤`. -/
theorem isFin_of_abs_lt_top {x : EReal} (h : max x (-x) < ⊤) : IsFin x := by
  induction x using EReal.rec with
  | bot => simp at h
  | top => simp at h
  | coe r => exact isFin_coe r

/-- One entry of the printed test `|v| < +inf` being 1 says that entry of `v` is finite. -/
theorem isFin_of_entry (v : FVec Ideal S64 .f32) (d : S64.Idx)
    (h : cmpf .olt (Host.absf v) (broadcastInDim S64 ![] Facts.bcast_S_S64 (constant S_ .f32 0x7F800000#32)) d = 1#1) :
    IsFin (v d) := by
  have h' : Ideal.cmp .olt (max (v d) (-(v d))) (Ideal.ofBits .f32 0x7F800000#32) = 1#1 := h
  rw [inf_word] at h'
  exact isFin_of_abs_lt_top (lt_of_cmp_olt h')

/-- One entry of the printed test `v ≥ 0` being 1 says that entry of `v` is nonnegative. -/
theorem nonneg_of_entry (v : FVec Ideal S64 .f32) (d : S64.Idx)
    (h : cmpf .oge v (broadcastInDim S64 ![] Facts.bcast_S_S64 (constant S_ .f32 0x00000000#32)) d = 1#1) :
    (0 : EReal) ≤ v d := by
  have h' : Ideal.cmp .oge (v d) (Ideal.ofBits .f32 0x00000000#32) = 1#1 := h
  rw [zero_word] at h'
  exact le_of_cmp_oge h'

/-- Where the predicate is all ones, the gain, the offset, the running mean and the running variance are finite at
    every channel and the running variance is nonnegative there. -/
theorem of_pre (a0 : FVec Ideal S100000x64 .f32) (a1 : FVec Ideal S27x64x64 .f32) (a2 a3 a4 a5 : FVec Ideal S64 .f32)
    (a6 a7 : IVec S27x60000 32)
    (h : Cert.Pre_finite_inputs.fn (F := Ideal) a0 a1 a2 a3 a4 a5 a6 a7 = fun _ => 1#1) :
    (∀ d : S64.Idx, IsFin (a2 d)) ∧ (∀ d : S64.Idx, IsFin (a3 d)) ∧ (∀ d : S64.Idx, IsFin (a4 d))
      ∧ (∀ d : S64.Idx, IsFin (a5 d)) ∧ (∀ d : S64.Idx, (0 : EReal) ≤ a5 d) := by
  have h0 := congrFun h ValueIdx.ix0
  dsimp only [fn, fn_part1] at h0
  simp only [andi, IntOp.andi_eq_one] at h0
  obtain ⟨⟨⟨⟨⟨⟨_, _⟩, h2⟩, h3⟩, h4⟩, h5⟩, h6⟩ := h0
  exact ⟨fun d => isFin_of_entry a2 d (Host.reduce_andi_all _ _ _ _ _ h2 d),
    fun d => isFin_of_entry a3 d (Host.reduce_andi_all _ _ _ _ _ h3 d),
    fun d => isFin_of_entry a4 d (Host.reduce_andi_all _ _ _ _ _ h4 d),
    fun d => isFin_of_entry a5 d (Host.reduce_andi_all _ _ _ _ _ h5 d),
    fun d => nonneg_of_entry a5 d (Host.reduce_andi_all _ _ _ _ _ h6 d)⟩

end Cert.PreFacts

end
-- ==== Proof.HostReads.lean ====
/- What the host operations around the two pallas_calls leave in the buffers the calls read. Before the first call:
   the gathered feature rows and the weights, each passed through a change of float format, which is the identity on
   the extended reals; so the call's two operands are the reference's gathered rows and the weights themselves. Between
   the calls: the segment sum of the first call's result by the flattened output indices, the per-channel scale
   gamma * rsqrt (var + eps) and the per-channel shift beta - (mean * gamma) * rsqrt (var + eps), the two laid out as
   1 x 64 rows. No host operation and no call writes an argument, so each argument is read at its launch contents. -/
import proofs.«175282_j52810917871748_1_alg».proof.Proof.Gen.KernelIdeal.Frame
import proofs.«175282_j52810917871748_1_alg».proof.Proof.Gen.ReferenceIdeal.Read
import Idealize.ShloMosaic.Lib.StableHlo.Run
import Idealize.ShloMosaic.PureOps.Ideal
import Idealize.ShloMosaic.Lib.Pipeline.Value
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments between the two calls -/

/-- At the first call's exit an argument buffer still holds its launch contents: the call's arrays are three
    intermediate buffers, and the host operations before it write intermediates only. -/
theorem W2_arg (c : Dev nD) (b : Ref sig .tc) (hb : ∀ w, Pipeline.arrRef spec0 w ≠ b)
    (hops : (hostOps0 (F := Ideal)).Forall fun op => (Proc.devRef .tc b : DevRef τ sig) ∉ op.writes) :
    W2 m ρ c (Proc.devRef .tc b) = m ((c : Thread nD τ).loc b) :=
  (W2_of_ne m ρ c b hb).trans
    (StableHlo.after_of_forall_not_mem (b := Proc.devRef .tc b) _ _ (List.forall_iff_forall_mem.mp hops))

theorem W2_main_arg2 (c : Dev nD) : W2 m ρ c (Proc.devRef .tc main_arg2) = m ((c : Thread nD τ).loc main_arg2) :=
  W2_arg m ρ c main_arg2 (by decide) (by
    simp only [hostOps0, List.Forall, StableHlo.nullary_writes, StableHlo.unary_writes, StableHlo.binary_writes, StableHlo.ternary_writes, Finset.mem_singleton]
    repeat' apply And.intro
    all_goals exact StableHlo.devRef_ne_of_ne (by decide))
theorem W2_main_arg3 (c : Dev nD) : W2 m ρ c (Proc.devRef .tc main_arg3) = m ((c : Thread nD τ).loc main_arg3) :=
  W2_arg m ρ c main_arg3 (by decide) (by
    simp only [hostOps0, List.Forall, StableHlo.nullary_writes, StableHlo.unary_writes, StableHlo.binary_writes, StableHlo.ternary_writes, Finset.mem_singleton]
    repeat' apply And.intro
    all_goals exact StableHlo.devRef_ne_of_ne (by decide))
theorem W2_main_arg4 (c : Dev nD) : W2 m ρ c (Proc.devRef .tc main_arg4) = m ((c : Thread nD τ).loc main_arg4) :=
  W2_arg m ρ c main_arg4 (by decide) (by
    simp only [hostOps0, List.Forall, StableHlo.nullary_writes, StableHlo.unary_writes, StableHlo.binary_writes, StableHlo.ternary_writes, Finset.mem_singleton]
    repeat' apply And.intro
    all_goals exact StableHlo.devRef_ne_of_ne (by decide))
theorem W2_main_arg5 (c : Dev nD) : W2 m ρ c (Proc.devRef .tc main_arg5) = m ((c : Thread nD τ).loc main_arg5) :=
  W2_arg m ρ c main_arg5 (by decide) (by
    simp only [hostOps0, List.Forall, StableHlo.nullary_writes, StableHlo.unary_writes, StableHlo.binary_writes, StableHlo.ternary_writes, Finset.mem_singleton]
    repeat' apply And.intro
    all_goals exact StableHlo.devRef_ne_of_ne (by decide))
theorem W2_main_arg7 (c : Dev nD) : W2 m ρ c (Proc.devRef .tc main_arg7) = m ((c : Thread nD τ).loc main_arg7) :=
  W2_arg m ρ c main_arg7 (by decide) (by
    simp only [hostOps0, List.Forall, StableHlo.nullary_writes, StableHlo.unary_writes, StableHlo.binary_writes, StableHlo.ternary_writes, Finset.mem_singleton]
    repeat' apply And.intro
    all_goals exact StableHlo.devRef_ne_of_ne (by decide))

/-! ## The first call's operands -/

/-- The first call's left operand is the reference's gathered rows: the same gather by the same wrapped indices, then
    a change of float format, the identity here. -/
theorem V1_gathered (c : Dev nD) :
    V1 m ρ c main_v7 = Cert.ReferenceIdeal.Read.val_main_v6 (F := Ideal) (m ((c : Thread nD τ).loc main_arg0)) (m ((c : Thread nD τ).loc main_arg6)) := by
  show StableHlo.after hostOps0 (W0 m ρ c) (Proc.devRef .tc main_v7) = _
  after_results
  rfl

/-- Its right operand is the weights, after the same change of format. -/
theorem V1_weights (c : Dev nD) : V1 m ρ c main_v8 = m ((c : Thread nD τ).loc main_arg1) := by
  show StableHlo.after hostOps0 (W0 m ρ c) (Proc.devRef .tc main_v8) = _
  after_results
  rfl

/-! ## The second call's operands -/

/-- The reciprocal standard deviation per channel, `rsqrt (var + eps)`, as the host computes it. -/
def inv (v : FVec Ideal S64 .f32) : FVec Ideal S64 .f32 :=
  Host.rsqrt (addf v (broadcastInDim S64 ![] bcast_S_S64 (constant S_ .f32 0x3727C5AC#32)))

/-- The scale row: `gamma * inv`, laid out as 1 x 64. -/
def scaleRow (g v : FVec Ideal S64 .f32) : FVec Ideal S1x64 .f32 :=
  shapeCast S1x64 (mulf g (inv v)) shapeCasts_S64_S1x64

/-- The shift row: `beta - (mean * gamma) * inv`, laid out as 1 x 64. -/
def shiftRow (g b mu v : FVec Ideal S64 .f32) : FVec Ideal S1x64 .f32 :=
  shapeCast S1x64 (subf b (mulf (mulf mu g) (inv v))) shapeCasts_S64_S1x64

/-- The second call's first operand is the reference's segment sum, once the first call's result is known to be the
    reference's batched product: the same reshape, the same flattened indices, the same scatter-add into zeros. -/
theorem V3_segsum (c : Dev nD)
    (x0 : (⟨Cert.ReferenceIdeal.S100000x64, .f32⟩ : BufTy).Contents (Elt Ideal))
    (x1 : (⟨Cert.ReferenceIdeal.S27x64x64, .f32⟩ : BufTy).Contents (Elt Ideal))
    (x6 : (⟨Cert.ReferenceIdeal.S27x60000, .i32⟩ : BufTy).Contents (Elt Ideal))
    (hres : W2 m ρ c (Proc.devRef .tc main_v9) = Cert.ReferenceIdeal.Read.val_main_v7 (F := Ideal) x0 x1 x6) :
    V3 m ρ c main_v14 = Cert.ReferenceIdeal.Read.val_main_v12 (F := Ideal) x0 x1 x6 (m ((c : Thread nD τ).loc main_arg7)) := by
  show StableHlo.after hostOps1 (W2 m ρ c) (Proc.devRef .tc main_v14) = _
  after_results
  rw [hres, W2_main_arg7]
  rfl

/-- Its second operand is the scale row of the launch's gain and running variance. -/
theorem V3_scale (c : Dev nD) :
    V3 m ρ c main_v19 = scaleRow (m ((c : Thread nD τ).loc main_arg2)) (m ((c : Thread nD τ).loc main_arg5)) := by
  show StableHlo.after hostOps1 (W2 m ρ c) (Proc.devRef .tc main_v19) = _
  after_results
  rw [W2_main_arg2, W2_main_arg5]
  rfl

/-- Its third operand is the shift row of the launch's gain, offset, running mean and running variance. -/
theorem V3_shift (c : Dev nD) :
    V3 m ρ c main_v23 = shiftRow (m ((c : Thread nD τ).loc main_arg2)) (m ((c : Thread nD τ).loc main_arg3))
      (m ((c : Thread nD τ).loc main_arg4)) (m ((c : Thread nD τ).loc main_arg5)) := by
  show StableHlo.after hostOps1 (W2 m ρ c) (Proc.devRef .tc main_v23) = _
  after_results
  rw [W2_main_arg2, W2_main_arg3, W2_main_arg4, W2_main_arg5]
  rfl

/-! ## The two rows read at an entry -/

/-- The channel of entry `(0, q)` of a 1 x 64 row. -/
abbrev chanOf (j : S1x64.Idx) : S64.Idx := fun a => match a with
  | ⟨0, _⟩ => ⟨(j 1).val, (j 1).isLt⟩

/-- A 64-vector laid out as a 1 x 64 row, read at an entry. -/
theorem row_apply (y : FVec Ideal S64 .f32) (j : S1x64.Idx) :
    shapeCast S1x64 y shapeCasts_S64_S1x64 j = y (chanOf j) :=
  shapeCast_apply y shapeCasts_S64_S1x64 j (chanOf j)
    (by rewrite [Shape.rowMajor_val_one, Shape.rowMajor_val_two]; have h0 : (j 0).val < 1 := (j 0).isLt; show (j 1).val = (j 0).val * 64 + (j 1).val; omega)

/-- The reciprocal standard deviation at a channel. -/
theorem inv_apply (v : FVec Ideal S64 .f32) (d : S64.Idx) :
    inv v d = Ideal.rsqrt (v d + Ideal.ofBits .f32 0x3727C5AC#32) := by
  unfold inv
  show Ideal.rsqrt (v d + broadcastInDim S64 ![] bcast_S_S64 (constant (F := Ideal) S_ .f32 0x3727C5AC#32) d) = _
  rw [broadcastInDim_apply _ bcast_S_S64 (constant (F := Ideal) S_ .f32 0x3727C5AC#32) d (fun a => a.elim0) (fun a => a.elim0)]
  rfl

theorem scaleRow_apply (g v : FVec Ideal S64 .f32) (j : S1x64.Idx) :
    scaleRow g v j = g (chanOf j) * Ideal.rsqrt (v (chanOf j) + Ideal.ofBits .f32 0x3727C5AC#32) := by
  unfold scaleRow
  rw [row_apply, ← inv_apply]
  rfl

theorem shiftRow_apply (g b mu v : FVec Ideal S64 .f32) (j : S1x64.Idx) :
    shiftRow g b mu v j = b (chanOf j) - (mu (chanOf j) * g (chanOf j)) * Ideal.rsqrt (v (chanOf j) + Ideal.ofBits .f32 0x3727C5AC#32) := by
  unfold shiftRow
  rw [row_apply, ← inv_apply]
  rfl

end Cert.KernelIdeal.HostReads

end
-- ==== Proof.Contrib.lean ====
/- The per-offset products. The first pallas_call walks a 27 x 10 grid; at point (k, b) it multiplies rows
   6000 b .. 6000 b + 5999 of offset k's gathered features by offset k's 64 x 64 weight block. Its result array
   therefore holds, at (k, r, d), the sum over the 64 input channels c of x[k, r, c] * w[k, c, d]. -/
import proofs.«175282_j52810917871748_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Contrib

open Cert.KernelIdeal Cert.KernelIdeal.Gen
open Idealize.ShloMosaic Idealize.ShloMosaic.TcCoe Idealize.SL.Sem
open Idealize.ShloMosaic.Pipeline (Dat)

/-- Where output entry `i = (k, r, d)` reads the left operand at channel `c`: `(k, r, c)`. -/
abbrev lidx (i : S27x60000x64.Idx) (c : Fin 64) : S27x60000x64.Idx := fun a => match a with
  | ⟨0, _⟩ => ⟨(i 0).val, (i 0).isLt⟩
  | ⟨1, _⟩ => ⟨(i 1).val, (i 1).isLt⟩
  | ⟨2, _⟩ => ⟨c.val, c.isLt⟩
/-- Where it reads the right operand: `(k, c, d)`. -/
abbrev ridx (i : S27x60000x64.Idx) (c : Fin 64) : S27x64x64.Idx := fun a => match a with
  | ⟨0, _⟩ => ⟨(i 0).val, (i 0).isLt⟩
  | ⟨1, _⟩ => ⟨c.val, c.isLt⟩
  | ⟨2, _⟩ => ⟨(i 2).val, (i 2).isLt⟩

/-- The batched product of the two operand arrays, entry by entry. -/
def prod (x : S27x60000x64.Idx → EReal) (w : S27x64x64.Idx → EReal) : S27x60000x64.Idx → EReal :=
  fun i => ∑ c : Fin 64, x (lidx i c) * w (ridx i c)

/-! ## The body's product at an entry of its block

The body lays its two blocks out flat ([1,6000,64] to [6000,64], [1,64,64] to [64,64]), multiplies them on the
matrix unit into a zero accumulator, and lays the [6000,64] product back out as [1,6000,64]. -/

/-- Row `r`, channel `c` of the flattened left operand is read where the product's entry `(r, d)` asks: axis 0 is the product's row. -/
theorem lhs_gemm_0 (p : S6000x64.Idx) (q : dot_S6000x64_S64x64_S6000x64_1_0_0_1_n_n.contr.Idx) :
    (dot_S6000x64_S64x64_S6000x64_1_0_0_1_n_n.lhsIdx p q 0).val = (p 0).val := by
  unfold DotDims.lhsIdx
  rw [dif_neg (show ¬(0 : Fin S6000x64.rank) ∈ dot_S6000x64_S64x64_S6000x64_1_0_0_1_n_n.lhsBatch by decide), dif_pos (show (0 : Fin S6000x64.rank) ∈ dot_S6000x64_S64x64_S6000x64_1_0_0_1_n_n.lhsNonContracting by decide)]
  rfl
/-- Axis 1 of the left operand is the contracted channel. -/
theorem lhs_gemm_1 (p : S6000x64.Idx) (q : dot_S6000x64_S64x64_S6000x64_1_0_0_1_n_n.contr.Idx) :
    (dot_S6000x64_S64x64_S6000x64_1_0_0_1_n_n.lhsIdx p q 1).val = (q ⟨0, by decide⟩).val :=
  dot_S6000x64_S64x64_S6000x64_1_0_0_1_n_n.lhsIdx_val_of_single rfl p q
/-- Axis 0 of the right operand is the contracted channel. -/
theorem rhs_gemm_0 (p : S6000x64.Idx) (q : dot_S6000x64_S64x64_S6000x64_1_0_0_1_n_n.contr.Idx) :
    (dot_S6000x64_S64x64_S6000x64_1_0_0_1_n_n.rhsIdx p q 0).val = (q ⟨0, by decide⟩).val :=
  dot_S6000x64_S64x64_S6000x64_1_0_0_1_n_n.rhsIdx_val_of_single rfl p q
/-- Axis 1 of the right operand is the product's column. -/
theorem rhs_gemm_1 (p : S6000x64.Idx) (q : dot_S6000x64_S64x64_S6000x64_1_0_0_1_n_n.contr.Idx) :
    (dot_S6000x64_S64x64_S6000x64_1_0_0_1_n_n.rhsIdx p q 1).val = (p 1).val := by
  unfold DotDims.rhsIdx
  rw [dif_neg (show ¬(1 : Fin S64x64.rank) ∈ dot_S6000x64_S64x64_S6000x64_1_0_0_1_n_n.rhsBatch by decide), dif_pos (show (1 : Fin S64x64.rank) ∈ dot_S6000x64_S64x64_S6000x64_1_0_0_1_n_n.rhsNonContracting by decide)]
  rfl

/-- The flat operands' entries the product's entry `p = (r, d)` multiplies at channel `c`: `(r, c)` and `(c, d)`. -/
abbrev lflat (p : S6000x64.Idx) (c : Fin 64) : S6000x64.Idx := fun a => match a with
  | ⟨0, _⟩ => ⟨(p 0).val, (p 0).isLt⟩
  | ⟨1, _⟩ => ⟨c.val, c.isLt⟩
abbrev rflat (p : S6000x64.Idx) (c : Fin 64) : S64x64.Idx := fun a => match a with
  | ⟨0, _⟩ => ⟨c.val, c.isLt⟩
  | ⟨1, _⟩ => ⟨(p 1).val, (p 1).isLt⟩

/-- The matrix unit's product into a zero accumulator, entry by entry: the sum over the 64 channels. -/
theorem gemm_apply (y0 : FVec Ideal S6000x64 .bf16) (y1 : FVec Ideal S64x64 .bf16) (p : S6000x64.Idx) :
    matmul (F := Ideal) dot_S6000x64_S64x64_S6000x64_1_0_0_1_n_n none y0 y1 (constant (F := Ideal) S6000x64 .f32 0x00000000#32) p
      = ∑ c : Fin 64, y0 (lflat p c) * y1 (rflat p c) := by
  show FloatOps.matmul dot_S6000x64_S64x64_S6000x64_1_0_0_1_n_n none y0 y1 (constant (F := Ideal) S6000x64 .f32 0x00000000#32) p = _
  rw [Ideal.matmul_constant_zero_apply, ← Equiv.sum_comp (ValueIdx.contrEquiv1 dot_S6000x64_S64x64_S6000x64_1_0_0_1_n_n 64 rfl rfl).symm]
  refine Finset.sum_congr rfl fun c _ => ?_
  have hc := ValueIdx.contrEquiv1_symm_val dot_S6000x64_S64x64_S6000x64_1_0_0_1_n_n 64 rfl rfl c
  have el : dot_S6000x64_S64x64_S6000x64_1_0_0_1_n_n.lhsIdx p ((ValueIdx.contrEquiv1 dot_S6000x64_S64x64_S6000x64_1_0_0_1_n_n 64 rfl rfl).symm c) = lflat p c := funext fun a => Fin.ext (by
    match a with
    | ⟨0, _⟩ => exact lhs_gemm_0 _ _
    | ⟨1, _⟩ => exact (lhs_gemm_1 _ _).trans hc)
  have er : dot_S6000x64_S64x64_S6000x64_1_0_0_1_n_n.rhsIdx p ((ValueIdx.contrEquiv1 dot_S6000x64_S64x64_S6000x64_1_0_0_1_n_n 64 rfl rfl).symm c) = rflat p c := funext fun a => Fin.ext (by
    match a with
    | ⟨0, _⟩ => exact (rhs_gemm_0 _ _).trans hc
    | ⟨1, _⟩ => exact rhs_gemm_1 _ _)
  rw [el, er]

/-- Inside a block, entry `j = (0, r, d)` of the product reads the left block at `(0, r, c)` -/
abbrev lblk (j : S1x6000x64.Idx) (c : Fin 64) : S1x6000x64.Idx := fun a => match a with
  | ⟨0, _⟩ => ⟨0, Nat.one_pos⟩
  | ⟨1, _⟩ => ⟨(j 1).val, (j 1).isLt⟩
  | ⟨2, _⟩ => ⟨c.val, c.isLt⟩
/-- and the right block at `(0, c, d)`. -/
abbrev rblk (j : S1x6000x64.Idx) (c : Fin 64) : S1x64x64.Idx := fun a => match a with
  | ⟨0, _⟩ => ⟨0, Nat.one_pos⟩
  | ⟨1, _⟩ => ⟨c.val, c.isLt⟩
  | ⟨2, _⟩ => ⟨(j 2).val, (j 2).isLt⟩

/-- What the body stores, entry by entry of its block: the channel sum of the two blocks' products. -/
theorem pay_apply (x0 : Vec Ideal S1x6000x64 .bf16) (x1 : Vec Ideal S1x64x64 .bf16) (j : S1x6000x64.Idx) :
    k0_pay1 (F := Ideal) x0 x1 j = ∑ c : Fin 64, x0 (lblk j c) * x1 (rblk j c) := by
  have h0 : (j 0).val < 1 := (j 0).isLt
  have h1 : (j 1).val < 6000 := (j 1).isLt
  have h2 : (j 2).val < 64 := (j 2).isLt
  unfold k0_pay1
  show shapeCast S1x6000x64 (matmul dot_S6000x64_S64x64_S6000x64_1_0_0_1_n_n none (shapeCast S6000x64 x0 shapeCasts_S1x6000x64_S6000x64) (shapeCast S64x64 x1 shapeCasts_S1x64x64_S64x64) (constant (F := Ideal) S6000x64 .f32 0x00000000#32)) shapeCasts_S6000x64_S1x6000x64 j = _
  rw [shapeCast_apply _ shapeCasts_S6000x64_S1x6000x64 j (ValueIdx.ix2 ⟨(j 1).val, h1⟩ ⟨(j 2).val, h2⟩)
    (by rewrite [Shape.rowMajor_val_two, Shape.rowMajor_val_three]; show (j 1).val * 64 + (j 2).val = ((j 0).val * 6000 + (j 1).val) * 64 + (j 2).val; omega),
    gemm_apply]
  refine Finset.sum_congr rfl fun c _ => ?_
  rw [shapeCast_apply x0 shapeCasts_S1x6000x64_S6000x64 _ (lblk j c)
      (by rewrite [Shape.rowMajor_val_three, Shape.rowMajor_val_two]; show (0 * 6000 + (j 1).val) * 64 + c.val = (j 1).val * 64 + c.val; omega),
    shapeCast_apply x1 shapeCasts_S1x64x64_S64x64 _ (rblk j c)
      (by rewrite [Shape.rowMajor_val_three, Shape.rowMajor_val_two]; show (0 * 64 + c.val) * 64 + (j 2).val = c.val * 64 + (j 2).val; omega)]

/-! ## From the blocks to the array -/

theorem origin3 : (![0, 0, 0] : Fin 3 → Nat) = fun _ => 0 := funext fun a => by fin_cases a <;> rfl

/-- The printed index maps, decided over the 27 x 10 grid: point `t` is offset `t / 10` and row block `t % 10`; the two
    feature windows sit at block `(t / 10, t % 10, 0)`, the weight window at `(t / 10, 0, 0)`. -/
theorem blockIndex : ∀ t : Fin cfg0.N,
    win0_0.index t (0 : Fin 3) = t.val / 10 ∧ win0_0.index t (1 : Fin 3) = t.val % 10 ∧ win0_0.index t (2 : Fin 3) = 0
    ∧ win0_1.index t (0 : Fin 3) = t.val / 10 ∧ win0_1.index t (1 : Fin 3) = 0 ∧ win0_1.index t (2 : Fin 3) = 0
    ∧ win0_2.index t (0 : Fin 3) = t.val / 10 ∧ win0_2.index t (1 : Fin 3) = t.val % 10 ∧ win0_2.index t (2 : Fin 3) = 0 :=
  (by decide +kernel : ∀ t : Fin grid0.N, _)

/-- The body's stored block at point `t`, entry by entry, when its two blocks are read off arrays `X` and `W` through the
    point's windows: the batched product of `X` and `W` at the entry of the result array the block's entry is. -/
theorem block_apply (X : S27x60000x64.Idx → EReal) (W : S27x64x64.Idx → EReal) (t : Fin cfg0.N) (j : S1x6000x64.Idx) :
    k0_pay1 (F := Ideal) (((cfg0.win 0).blk t).view.read (Elt Ideal) X) (((cfg0.win 1).blk t).view.read (Elt Ideal) W) j
      = prod X W (((cfg0.win 2).blk t).view.emb j) := by
  obtain ⟨a0, a1, a2, b0, b1, b2, o0, o1, o2⟩ := blockIndex t
  have hj0 : (j 0).val < 1 := (j 0).isLt
  rw [pay_apply]
  unfold prod
  refine Finset.sum_congr rfl fun ch _ => ?_
  show X (((cfg0.win 0).blk t).view.emb (lblk j ch)) * W (((cfg0.win 1).blk t).view.emb (rblk j ch))
    = X (lidx (((cfg0.win 2).blk t).view.emb j) ch) * W (ridx (((cfg0.win 2).blk t).view.emb j) ch)
  have hl : ((cfg0.win 0).blk t).view.emb (lblk j ch) = lidx (((cfg0.win 2).blk t).view.emb j) ch := by
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 6000 + 1 * (j 1).val = win0_2.index t (1 : Fin 3) * 6000 + 1 * (j 1).val; omega
    | ⟨2, _⟩ => show win0_0.index t (2 : Fin 3) * 64 + 1 * ch.val = ch.val; omega
  have hr : ((cfg0.win 1).blk t).view.emb (rblk j ch) = ridx (((cfg0.win 2).blk t).view.emb j) ch := by
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * ch.val = ch.val; omega
    | ⟨2, _⟩ => show win0_1.index t (2 : Fin 3) * 64 + 1 * (j 2).val = win0_2.index t (2 : Fin 3) * 64 + 1 * (j 2).val; omega
  rw [hl, hr]

variable (V : (c : Dev nD) → (b : Ref sig .tc) → Buf (Elt Ideal) ((c : Thread nD τ).loc b))

/-- What point `t` writes back is its block of the batched product of the operand arrays as the call found them. -/
theorem flushed_eq (c : Dev nD) (t : Fin cfg0.N) :
    (dat0 (F := Ideal) V c).flushed 2 t = ((cfg0.win 2).blk t).view.read (Elt Ideal) (prod (V c main_v7) (V c main_v8)) := by
  show (cfg0.win 2).cut (grid0.coords t) ((dat0 V c).after 2 t) = _
  rw [after0_2]
  unfold out0_2
  rw [View.canon_unit_zero origin3]
  simp only [View.ld_unit_zero (S := S1x6000x64) origin3, View.ld_unit_zero (S := S1x64x64) origin3]
  funext j
  exact block_apply (V c main_v7) (V c main_v8) t j

/-- An entry of the result array lies in point `t`'s block iff each coordinate lies in the block's range on its axis. -/
theorem mem_block (t : Fin cfg0.N) (i : S27x60000x64.Idx) :
    i ∈ ((cfg0.win 2).blk t).view.set ↔ ∀ a : Fin 3, win0_2.index t a * S1x6000x64.size a ≤ (i a).val ∧ (i a).val < win0_2.index t a * S1x6000x64.size a + S1x6000x64.size a := by
  show i ∈ ((View.whole main_v9).slice (win0_2.rect t)).set ↔ _
  rw [View.set_slice_whole, Rect.mem_set_unit]
  exact Iff.rfl

/-- Every entry `(k, r, d)` of the result array lies in the block some point writes back: the point of offset `k` and
    row block `r / 6000`, which is point `10 k + r / 6000` of the grid. -/
theorem cover (i : S27x60000x64.Idx) : ∃ t : Fin cfg0.N, (cfg0.win 2).flush t = true ∧ i ∈ ((cfg0.win 2).blk t).view.set := by
  have hi0 : (i 0).val < 27 := (i 0).isLt
  have hi1 : (i 1).val < 60000 := (i 1).isLt
  have hi2 : (i 2).val < 64 := (i 2).isLt
  have hN : cfg0.N = 270 := N_0
  obtain ⟨t, ht⟩ : ∃ t : Fin cfg0.N, t.val = (i 0).val * 10 + (i 1).val / 6000 :=
    ⟨⟨(i 0).val * 10 + (i 1).val / 6000, by rw [hN]; omega⟩, rfl⟩
  obtain ⟨-, -, -, -, -, -, o0, o1, o2⟩ := blockIndex t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 6000 ≤ (i 1).val ∧ (i 1).val < win0_2.index t (1 : Fin 3) * 6000 + 6000; omega
  | ⟨2, _⟩ => show win0_2.index t (2 : Fin 3) * 64 ≤ (i 2).val ∧ (i 2).val < win0_2.index t (2 : Fin 3) * 64 + 64; omega

/-- After the first pallas_call its result array is the batched product of its two operand arrays as the call found them. -/
theorem arrAt_eq (c : Dev nD) : (dat0 (F := Ideal) V c).arrAt 2 cfg0.N = prod (V c main_v7) (V c main_v8) :=
  (dat0 V c).arrAt_eq_of_cover 2 _ (fun t _ => flushed_eq V c t) cover

end Cert.KernelIdeal.Contrib

end
-- ==== Proof.BnRelu.lean ====
/- The normalisation call. The second pallas_call walks 10 blocks of 10000 rows; in each it multiplies every row
   by the 1 x 64 scale row, adds the 1 x 64 shift row and clamps at zero from below. Its result array therefore holds,
   at (n, d), max (x[n, d] * scale[0, d] + shift[0, d], 0). -/
import proofs.«175282_j52810917871748_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BnRelu

open Cert.KernelIdeal Cert.KernelIdeal.Gen
open Idealize.ShloMosaic Idealize.ShloMosaic.TcCoe Idealize.SL.Sem
open Idealize.ShloMosaic.Pipeline (Dat)

/-- The entry of a 1 x 64 row that entry `i = (n, d)` of the big array meets: `(0, d)`. -/
abbrev chan (i : S100000x64.Idx) : S1x64.Idx := fun a => match a with
  | ⟨0, _⟩ => ⟨0, Nat.one_pos⟩
  | ⟨1, _⟩ => ⟨(i 1).val, (i 1).isLt⟩

/-- Scale, shift, clamp at zero: entry by entry. -/
def bnrelu (x : S100000x64.Idx → EReal) (sc sh : S1x64.Idx → EReal) : S100000x64.Idx → EReal :=
  fun i => max (x i * sc (chan i) + sh (chan i)) (Ideal.ofBits .f32 0x00000000#32)

variable (V : (c : Dev nD) → (b : Ref sig .tc) → Buf (Elt Ideal) ((c : Thread nD τ).loc b))

/-- The pair of zero offsets is the constant zero. -/
theorem zero_off : (![0, 0] : Fin 2 → Nat) = fun _ => 0 := funext fun a => by fin_cases a <;> rfl

/-- The entry of a 1 x 64 row that entry `j = (p, q)` of a 10000 x 64 block meets: `(0, q)`. -/
abbrev lane (j : S10000x64.Idx) : S1x64.Idx := fun a => match a with
  | ⟨0, _⟩ => ⟨0, Nat.one_pos⟩
  | ⟨1, _⟩ => ⟨(j 1).val, (j 1).isLt⟩

/-- A 1 x 64 row spread over 10000 rows reads, at `(p, q)`, the row's entry `(0, q)`. -/
theorem spread_apply (r : S1x64.Idx → EReal) (j : S10000x64.Idx) :
    broadcastTo S10000x64 r broadcasts_S1x64_S10000x64 j = r (lane j) :=
  broadcastTo_apply r _ j (lane j) (fun a => by
    match a with
    | ⟨0, _⟩ => rfl
    | ⟨1, _⟩ => rfl)

/-- The body's stored value at `(p, q)` of a block: the block's entry times the scale row's entry `(0, q)`, plus the
    shift row's entry `(0, q)`, clamped at zero from below. -/
theorem pay_apply (x : Vec Ideal S10000x64 .f32) (s b : Vec Ideal S1x64 .f32) (j : S10000x64.Idx) :
    k1_pay1 (F := Ideal) x s b j = max (x j * s (lane j) + b (lane j)) (Ideal.ofBits .f32 0x00000000#32) := by
  unfold k1_pay1
  show max ((shapeCast S10000x64 x shapeCasts_S10000x64_S10000x64) j
        * (broadcastTo S10000x64 (shapeCast S1x64 s shapeCasts_S1x64_S1x64) broadcasts_S1x64_S10000x64) j
      + (broadcastTo S10000x64 (shapeCast S1x64 b shapeCasts_S1x64_S1x64) broadcasts_S1x64_S10000x64) j)
    (Ideal.ofBits .f32 0x00000000#32) = _
  rw [shapeCast_self, shapeCast_self, shapeCast_self, spread_apply, spread_apply]

/-- The printed index maps over the ten points: the big input and the result sit at block `(t, 0)`, the scale and
    shift rows at block `(0, 0)`. -/
theorem blocks_at : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `bnrelu` of the three operand arrays: rows `10000 t … 10000 t + 9999`. -/
theorem flushed_eq (c : Dev nD) (t : Fin cfg1.N) :
    (dat1 (F := Ideal) V c).flushed 3 t
      = ((cfg1.win 3).blk t).view.read (Elt Ideal) (bnrelu (V c main_v14) (V c main_v19) (V c main_v23)) := by
  show (cfg1.win 3).cut (grid1.coords t) ((dat1 V c).after 3 t) = _
  rw [after1_3]
  unfold out1_3
  rw [View.canon_unit_zero zero_off]
  simp only [View.ld_unit_zero (S := S10000x64) zero_off, View.ld_unit_zero (S := S1x64) zero_off]
  obtain ⟨e0, e1, e2, e3, e4, e5, e6, e7⟩ := blocks_at t
  funext j
  show k1_pay1 (F := Ideal) (iblk1 V c 0 t) (iblk1 V c 1 t) (iblk1 V c 2 t) j
    = bnrelu (V c main_v14) (V c main_v19) (V c main_v23) (((cfg1.win 3).blk t).view.emb j)
  rw [pay_apply]
  -- the big input's block and the result's block are the same rows of their arrays
  have hx : (iblk1 V c 0 t : Vec Ideal S10000x64 .f32) j
      = (V c main_v14 : S100000x64.Idx → EReal) (((cfg1.win 3).blk t).view.emb j) := by
    show (V c main_v14 : S100000x64.Idx → EReal) (((cfg1.win 0).blk t).view.emb j) = _
    refine congrArg _ (funext fun a => Fin.ext ?_)
    match a with
    | ⟨0, _⟩ =>
      show win1_0.index t (0 : Fin 2) * 10000 + 1 * (j 0).val = win1_3.index t (0 : Fin 2) * 10000 + 1 * (j 0).val
      rw [e0, e6]
    | ⟨1, _⟩ =>
      show win1_0.index t (1 : Fin 2) * 64 + 1 * (j 1).val = win1_3.index t (1 : Fin 2) * 64 + 1 * (j 1).val
      rw [e1, e7]
  -- the scale row's one block is the whole row: its entry (0, q) is the array's entry (0, q)
  have hs : (iblk1 V c 1 t : Vec Ideal S1x64 .f32) (lane j)
      = (V c main_v19 : S1x64.Idx → EReal) (chan (((cfg1.win 3).blk t).view.emb j)) := by
    show (V c main_v19 : S1x64.Idx → EReal) (((cfg1.win 1).blk t).view.emb (lane j)) = _
    refine congrArg _ (funext fun a => Fin.ext ?_)
    match a with
    | ⟨0, _⟩ =>
      show win1_1.index t (0 : Fin 2) * 1 + 1 * 0 = 0
      rw [e2]
    | ⟨1, _⟩ =>
      show win1_1.index t (1 : Fin 2) * 64 + 1 * (j 1).val = win1_3.index t (1 : Fin 2) * 64 + 1 * (j 1).val
      rw [e3, e7]
  -- and likewise the shift row's
  have hb : (iblk1 V c 2 t : Vec Ideal S1x64 .f32) (lane j)
      = (V c main_v23 : S1x64.Idx → EReal) (chan (((cfg1.win 3).blk t).view.emb j)) := by
    show (V c main_v23 : S1x64.Idx → EReal) (((cfg1.win 2).blk t).view.emb (lane j)) = _
    refine congrArg _ (funext fun a => Fin.ext ?_)
    match a with
    | ⟨0, _⟩ =>
      show win1_2.index t (0 : Fin 2) * 1 + 1 * 0 = 0
      rw [e4]
    | ⟨1, _⟩ =>
      show win1_2.index t (1 : Fin 2) * 64 + 1 * (j 1).val = win1_3.index t (1 : Fin 2) * 64 + 1 * (j 1).val
      rw [e5, e7]
  rw [hx, hs, hb]
  rfl

/-- An entry of the result array lies in point `t`'s block iff each coordinate lies in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v24).slice (win1_3.rect t)).set ↔ _
  rw [View.set_slice_whole, Rect.mem_set_unit]
  exact Iff.rfl

/-- Row `n` lies in the block of point `n / 10000`: the ten blocks tile the 100000 rows. -/
theorem rows_tiled (i : S100000x64.Idx) :
    ∃ t : Fin cfg1.N, (cfg1.win 3).flush t = true ∧ i ∈ ((cfg1.win 3).blk t).view.set := by
  have hr : (i 0).val < 100000 := (i 0).isLt
  have hq : (i 1).val < 64 := (i 1).isLt
  have hN : cfg1.N = 10 := N_1
  refine ⟨⟨(i 0).val / 10000, by rw [hN]; omega⟩, flush1_3 _, ?_⟩
  rw [mem_blk]
  obtain ⟨-, -, -, -, -, -, e6, e7⟩ := blocks_at ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 64 ≤ (i 1).val ∧ (i 1).val < win1_3.index _ (1 : Fin 2) * 64 + 64
    rw [e7]; omega

/-- After the second pallas_call its result array is `bnrelu` of its three operand arrays as the call found them. -/
theorem arrAt_eq (c : Dev nD) : (dat1 (F := Ideal) V c).arrAt 3 cfg1.N = bnrelu (V c main_v14) (V c main_v19) (V c main_v23) := by
  exact (dat1 (F := Ideal) V c).arrAt_eq_of_cover 3 _ (fun t _ => flushed_eq V c t) rows_tiled

end Cert.KernelIdeal.BnRelu

end
-- ==== Proof.BnLaw.lean ====
/- The batch-norm rearrangement on the extended reals. With a finite mean `r`, a finite per-channel factor `g`
   (the reciprocal standard deviation times the gain) and a finite offset `b`, centring first and scaling after,
   `(s - r) * g + b`, equals scaling first and adding the folded shift, `s * g + (b - r * g)`, for EVERY extended real `s`:
   at a real `s` it is distributivity in the reals; at an infinite `s` both sides are the infinity whose sign is
   that of `g`, or `b` when `g = 0`. -/
import Idealize.ShloMosaic.PureOps.Ideal
import Mathlib.Data.EReal.Operations
import proofs.«175282_j52810917871748_1_alg».proof.Proof.LibFinite

namespace Cert.BnLaw

open Cert.LibFinite

/-- Centre-then-scale equals scale-then-shift, the sum being any extended real and the three channel constants real. -/
theorem center_scale_coe (s : EReal) (r g b : ℝ) :
    (s - (r : EReal)) * (g : EReal) + (b : EReal) = s * (g : EReal) + ((b : EReal) - (r : EReal) * (g : EReal)) := by
  induction s using EReal.rec with
  | coe x =>
    rw [← EReal.coe_sub, ← EReal.coe_mul, ← EReal.coe_add, ← EReal.coe_mul, ← EReal.coe_mul, ← EReal.coe_sub, ← EReal.coe_add]
    congr 1; ring
  | top =>
    rw [EReal.top_sub_coe, ← EReal.coe_mul, ← EReal.coe_sub]
    rcases lt_trichotomy g 0 with hg | hg | hg
    · rw [EReal.top_mul_coe_of_neg hg, EReal.bot_add, EReal.bot_add]
    · subst hg; rw [EReal.coe_zero, mul_zero, zero_add, zero_add, mul_zero, sub_zero]
    · rw [EReal.top_mul_coe_of_pos hg, EReal.top_add_coe, EReal.top_add_coe]
  | bot =>
    rw [EReal.bot_sub, ← EReal.coe_mul, ← EReal.coe_sub]
    rcases lt_trichotomy g 0 with hg | hg | hg
    · rw [EReal.bot_mul_coe_of_neg hg, EReal.top_add_coe, EReal.top_add_coe]
    · subst hg; rw [EReal.coe_zero, mul_zero, zero_add, zero_add, mul_zero, sub_zero]
    · rw [EReal.bot_mul_coe_of_pos hg, EReal.bot_add, EReal.bot_add]

/-- The same with the constants given as finite extended reals. -/
theorem center_scale (s : EReal) {r g b : EReal} (hr : IsFin r) (hg : IsFin g) (hb : IsFin b) :
    (s - r) * g + b = s * g + (b - r * g) := by
  obtain ⟨r', rfl⟩ := isFin_iff.mp hr
  obtain ⟨g', rfl⟩ := isFin_iff.mp hg
  obtain ⟨b', rfl⟩ := isFin_iff.mp hb
  exact center_scale_coe s r' g' b'

/-- The kernel's spelling against the reference's: with the per-channel factor a product `v * g` of two finite values
    (the reciprocal standard deviation and the gain), scaling by `g * v` and adding the folded shift `b - r * g * v`
    is centring by `r`, scaling by `v * g` and adding `b`. -/
theorem scale_shift_eq (s : EReal) {r g b v : EReal} (hr : IsFin r) (hg : IsFin g) (hb : IsFin b) (hv : IsFin v) :
    s * (g * v) + (b - r * g * v) = (s - r) * (v * g) + b := by
  rw [center_scale s hr (hv.mul hg) hb, mul_comm g v, mul_assoc r g v, mul_comm g v]

end Cert.BnLaw
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«175282_j52810917871748_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.Bridge.lean ====
/- The kernel's result is the reference's. Both programs gather the same feature rows, take per offset the same
   64-channel products, and add the products into the same output rows; the kernel's first pallas_call does the products
   block by block where the reference takes one batched product, which is the same sum over the 64 channels at every
   entry. The two differ in how the normalisation is spelt: with inv = rsqrt (var + eps), the reference centres first,
   max ((S - mean) * (inv * gamma) + beta, 0), and the kernel folds the mean into a shift,
   max (S * (gamma * inv) + (beta - (mean * gamma) * inv), 0). With gamma, beta, mean and var finite and var >= 0 the
   constant inv is a positive real, and the two spellings agree at every extended real S (the centre-then-scale law). -/
import proofs.«175282_j52810917871748_1_alg».proof.Proof.HostReads
import proofs.«175282_j52810917871748_1_alg».proof.Proof.Contrib
import proofs.«175282_j52810917871748_1_alg».proof.Proof.BnRelu
import proofs.«175282_j52810917871748_1_alg».proof.Proof.BnLaw
import proofs.«175282_j52810917871748_1_alg».proof.Proof.LibConsts

set_option maxRecDepth 16384

noncomputable section

namespace Cert.KernelIdeal.Bridge

open Cert.KernelIdeal Cert.KernelIdeal.Gen Cert.KernelIdeal.HostReads Cert.KernelIdeal.Contrib Cert.KernelIdeal.BnRelu
open Cert.LibFinite
open Idealize.ShloMosaic Idealize.ShloMosaic.TcCoe Idealize.SL.Sem Idealize.ShloMosaic.StableHlo

variable (m : (ℓ : Loc nD τ sig) → Buf (Elt Ideal) ℓ) (ρ : Dev nD → PrngReg)

/-- The channel of output entry `(n, d)`. -/
abbrev dch (i : S100000x64.Idx) : S64.Idx := fun a => match a with
  | ⟨0, _⟩ => ⟨(i 1).val, (i 1).isLt⟩

/-- The first call's result, the batched product of its operands, is the reference's batched product of the gathered
    rows and the weights: at every entry the same sum over the 64 channels. -/
theorem products_eq (c : Dev nD) :
    W2 m ρ c (Proc.devRef .tc main_v9)
      = Cert.ReferenceIdeal.Read.val_main_v7 (F := Ideal) (m ((c : Thread nD τ).loc main_arg0))
          (m ((c : Thread nD τ).loc main_arg1)) (m ((c : Thread nD τ).loc main_arg6)) := by
  refine (W2_arr m ρ c 2 : W2 m ρ c (Proc.devRef .tc main_v9) = _).trans ?_
  rw [Contrib.arrAt_eq (V1 m ρ) c, V1_gathered, V1_weights]
  funext i
  rw [Cert.ReferenceIdeal.Read.val_main_v7_apply]
  rfl

/-- THE VALUE: the kernel's result buffer ends at the reference's result term of the launch's arguments. -/
theorem kernel_value (c : Dev nD)
    (hg : ∀ d : S64.Idx, IsFin (m ((c : Thread nD τ).loc main_arg2) d))
    (hb : ∀ d : S64.Idx, IsFin (m ((c : Thread nD τ).loc main_arg3) d))
    (hmu : ∀ d : S64.Idx, IsFin (m ((c : Thread nD τ).loc main_arg4) d))
    (hv : ∀ d : S64.Idx, IsFin (m ((c : Thread nD τ).loc main_arg5) d))
    (hv0 : ∀ d : S64.Idx, (0 : EReal) ≤ m ((c : Thread nD τ).loc main_arg5) d) :
    W4 m ρ c (Proc.devRef .tc main_v24)
      = Cert.ReferenceIdeal.Read.val_main_v27 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) := by
  refine (W4_arr m ρ c 3 : W4 m ρ c (Proc.devRef .tc main_v24) = _).trans ?_
  rw [BnRelu.arrAt_eq (V3 m ρ) c, V3_segsum m ρ c _ _ _ (products_eq m ρ c), V3_scale, V3_shift]
  funext i
  unfold bnrelu
  rw [scaleRow_apply, shiftRow_apply]
  open Cert.ReferenceIdeal.Read in
  rw [val_main_v27_apply, val_main_v25_apply, val_main_v22_apply, val_main_v18_apply, val_main_v26_apply,
    val_main_cst_2_apply, val_main_v24_apply, val_main_v23_apply, val_main_v21_apply, val_main_v20_apply,
    val_main_v19_apply, val_main_v15_apply, val_main_v14_apply, val_main_v13_apply, val_main_cst_1_apply,
    val_main_v17_apply, val_main_v16_apply]
  have e1 : Cert.ReferenceIdeal.Read.idx_main_v16 (Cert.ReferenceIdeal.Read.idx_main_v17 i) = dch i :=
    funext fun a => Fin.ext (by match a with | ⟨0, _⟩ => rfl)
  have e2 : Cert.ReferenceIdeal.Read.idx_main_v20 (Cert.ReferenceIdeal.Read.idx_main_v21 i) = dch i :=
    funext fun a => Fin.ext (by match a with | ⟨0, _⟩ => rfl)
  have e3 : Cert.ReferenceIdeal.Read.idx_main_v23 (Cert.ReferenceIdeal.Read.idx_main_v24 i) = dch i :=
    funext fun a => Fin.ext (by match a with | ⟨0, _⟩ => rfl)
  have e4 : chanOf (chan i) = dch i :=
    funext fun a => Fin.ext (by match a with | ⟨0, _⟩ => rfl)
  rw [e1, e2, e3, e4]
  simp only [Ideal.maximumf_def, Ideal.addf_def, Ideal.mulf_def, Ideal.subf_def, Ideal.hostUnary_rsqrt_def, Ideal.ofBits_def]
  generalize Cert.ReferenceIdeal.Read.val_main_v12 (F := Ideal) _ _ _ _ i = S
  have hinv := ((hv (dch i)).add Cert.LibConsts.isFin_eps).rsqrt
    (add_pos_of_nonneg_of_pos (hv0 (dch i)) Cert.LibConsts.eps_pos)
  exact congrArg (fun t : EReal => max t (Ideal.ofBits .f32 0x00000000#32))
    (Cert.BnLaw.scale_shift_eq S (hmu (dch i)) (hg (dch i)) (hb (dch i)) hinv)

end Cert.KernelIdeal.Bridge

end
-- ==== Proof.lean ====
/- The certificate of a sparse 3-D convolution block: gather the feature rows of the matched voxel pairs, multiply
   them per kernel offset by that offset's 64 x 64 weights, add the products into the output voxels' rows, then
   batch-normalise with the running statistics and clamp at zero.

   Both programs compute the segment sum S the same way up to the tiling of the per-offset products: the kernel's
   first pallas_call multiplies 6000-row blocks on a 27 x 10 grid where the reference takes one batched product, and
   a change of float format before it is the identity on the extended reals. They differ in the normalisation: with
   inv = rsqrt (var + eps) the reference computes max ((S - mean) * (inv * gamma) + beta, 0), the kernel's second
   pallas_call max (S * scale + shift, 0) with scale = gamma * inv and shift = beta - (mean * gamma) * inv folded on
   the host. The two agree when inv is a real number, which the precondition grants: the gain, the offset, the running
   mean and the running variance are finite and the running variance is nonnegative, so var + eps > 0. (At var = -eps
   the reciprocal square root is +inf, the kernel's shift is -inf and the two results differ; so the nonnegativity of
   the variance is used, and it is what keeps the reference's own rsqrt inside its domain.) Nothing is asked of the
   features, the weights or the indices: the law holds at every extended real S.

   The three frames: the kernel's two are the generated frame certificates; the reference's is its generated run with
   the result dropped. The idealization rewrote nothing, so `preserves` is trivial. -/
import proofs.«175282_j52810917871748_1_alg».proof.Defs
import proofs.«175282_j52810917871748_1_alg».proof.Proof.Gen.Kernel
import proofs.«175282_j52810917871748_1_alg».proof.Proof.Gen.Kernel.Skeleton
import proofs.«175282_j52810917871748_1_alg».proof.Proof.Gen.Kernel.Launch
import proofs.«175282_j52810917871748_1_alg».proof.Proof.Gen.Kernel.Points
import proofs.«175282_j52810917871748_1_alg».proof.Proof.Gen.Kernel.Frame
import proofs.«175282_j52810917871748_1_alg».proof.Proof.Gen.KernelIdeal
import proofs.«175282_j52810917871748_1_alg».proof.Proof.Gen.KernelIdeal.Skeleton
import proofs.«175282_j52810917871748_1_alg».proof.Proof.Gen.KernelIdeal.Launch
import proofs.«175282_j52810917871748_1_alg».proof.Proof.Gen.KernelIdeal.Points
import proofs.«175282_j52810917871748_1_alg».proof.Proof.Gen.KernelIdeal.Frame
import proofs.«175282_j52810917871748_1_alg».proof.Proof.Gen.ReferenceIdeal
import proofs.«175282_j52810917871748_1_alg».proof.Proof.Gen.ReferenceIdeal.Run
import proofs.«175282_j52810917871748_1_alg».proof.Proof.Gen.ReferenceIdeal.Read
import proofs.«175282_j52810917871748_1_alg».proof.Proof.Gen.Pre_finite_inputs
import proofs.«175282_j52810917871748_1_alg».proof.Proof.KernelRun
import proofs.«175282_j52810917871748_1_alg».proof.Proof.PreFacts
import proofs.«175282_j52810917871748_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's result term of the launch's arguments: the kernel by the value of its
    result buffer under the precondition's facts on the four per-channel vectors, the reference by its run. -/
theorem algebraic : Cert.algebraic_KernelIdeal_ReferenceIdeal := by
  intro m ρ m' ρ' hpre hagree
  refine ⟨fun c => Cert.ReferenceIdeal.Read.val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Launched.run_named (F := Ideal) m ρ)
    obtain ⟨hg, hb, hmu, hv, hv0⟩ := Cert.PreFacts.of_pre _ _ _ _ _ _ _ _ (hpre c)
    exact ⟨(h c).1.trans (Cert.KernelIdeal.Bridge.kernel_value m ρ c hg hb hmu hv hv0), (h c).2⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq]
    obtain ⟨a0, a1, a2, a3, a4, a5, a6, a7⟩ := hagree c
    rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
